-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x960 : Shape := ⟨2, ![65536, 960]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x960 : S_.BroadcastsInDim S65536x960 (![] : Fin 0 → Fin S65536x960.rank)
  reducesTo_S65536x960_S_d0_1 : S65536x960.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x1024 .f32) (main_arg5 : FVec F S64 .f32) (main_arg6 : FVec F S64x1024 .f32) (main_arg7 : FVec F S64 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_v33

def fn {F : FTy → Type} [FloatOps F] (main_arg0 : FVec F S65536x64 .f32) (main_arg1 : FVec F S65536x960 .f32) (main_arg2 : FVec F S1024x1024 .f32) (main_arg3 : FVec F S1024 .f32) (main_arg4 : FVec F S64x1024 .f32) (main_arg5 : FVec F S64 .f32) (main_arg6 : FVec F S64x1024 .f32) (main_arg7 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x960 .f32 := Host.absf main_arg1
  let main_cst_0 : FVec F S_ .f32 := constant S_ .f32 0x7F800000#32
  let main_v5 : FVec F S65536x960 .f32 := broadcastInDim S65536x960 ![] bcast_S_S65536x960 main_cst_0
  let main_v6 : IVec S65536x960 1 := cmpf .olt main_v4 main_v5
  let main_c_1 : IVec S_ 1 := constantI S_ 1 1#1
  let main_v7 : IVec S_ 1 := (fun x v => Host.reduce IntOp.andi x v reducesTo_S65536x960_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S65536x64 : Shape := ⟨2, ![65536, 64]⟩
abbrev S65536x960 : Shape := ⟨2, ![65536, 960]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S1024x1 : Shape := ⟨2, ![1024, 1]⟩
abbrev S1x1023 : Shape := ⟨2, ![1, 1023]⟩
abbrev S1023 : Shape := ⟨1, ![1023]⟩
abbrev S2047 : Shape := ⟨1, ![2047]⟩
abbrev S1x1024 : Shape := ⟨2, ![1, 1024]⟩
abbrev S_ : Shape := ⟨0, ![]⟩
abbrev S1024x1024x1 : Shape := ⟨3, ![1024, 1024, 1]⟩
abbrev S1024x64 : Shape := ⟨2, ![1024, 64]⟩
abbrev S1024x960 : Shape := ⟨2, ![1024, 960]⟩
abbrev S960x1024 : Shape := ⟨2, ![960, 1024]⟩
abbrev S1x64 : Shape := ⟨2, ![1, 64]⟩

abbrev nBuf : Space → Nat
  | .hbm => 44
  | .vmem => 15
  | .smem => 0
  | _ => 0

abbrev bufTy : (tb : Table) → Fin (tcTables nBuf tb) → BufTy
  | .hbm, ⟨0, _⟩ => ⟨S65536x64, .f32⟩
  | .hbm, ⟨1, _⟩ => ⟨S65536x960, .f32⟩
  | .hbm, ⟨2, _⟩ => ⟨S1024x1024, .f32⟩
  | .hbm, ⟨3, _⟩ => ⟨S1024, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x1, .f32⟩
  | .hbm, ⟨9, _⟩ => ⟨S1024x1, .f32⟩
  | .hbm, ⟨10, _⟩ => ⟨S1024, .f32⟩
  | .hbm, ⟨11, _⟩ => ⟨S1x1023, .f32⟩
  | .hbm, ⟨12, _⟩ => ⟨S1023, .f32⟩
  | .hbm, ⟨13, _⟩ => ⟨S2047, .f32⟩
  | .hbm, ⟨14, _⟩ => ⟨S1024, .i32⟩
  | .hbm, ⟨15, _⟩ => ⟨S1024x1, .i32⟩
  | .hbm, ⟨16, _⟩ => ⟨S1024, .i32⟩
  | .hbm, ⟨17, _⟩ => ⟨S1x1024, .i32⟩
  | .hbm, ⟨18, _⟩ => ⟨S_, .i32⟩
  | .hbm, ⟨19, _⟩ => ⟨S1024x1, .i32⟩
  | .hbm, ⟨20, _⟩ => ⟨S1024x1, .i32⟩
  | .hbm, ⟨21, _⟩ => ⟨S1024x1024, .i32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i1⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024x1, .i32⟩
  | .hbm, ⟨32, _⟩ => ⟨S1024x1024, .f32⟩
  | .hbm, ⟨33, _⟩ => ⟨S1024x64, .f32⟩
  | .hbm, ⟨34, _⟩ => ⟨S64x1024, .f32⟩
  | .hbm, ⟨35, _⟩ => ⟨S1024x960, .f32⟩
  | .hbm, ⟨36, _⟩ => ⟨S960x1024, .f32⟩
  | .hbm, ⟨37, _⟩ => ⟨S1024x64, .f32⟩
  | .hbm, ⟨38, _⟩ => ⟨S1024x64, .f32⟩
  | .hbm, ⟨39, _⟩ => ⟨S1x1024, .f32⟩
  | .hbm, ⟨40, _⟩ => ⟨S1x64, .f32⟩
  | .hbm, ⟨41, _⟩ => ⟨S1x64, .f32⟩
  | .hbm, ⟨42, _⟩ => ⟨S65536x64, .f32⟩
  | .hbm, ⟨43, _⟩ => ⟨S65536x64, .f32⟩
  | .local _ .vmem, ⟨0, _⟩ => ⟨S1024x64, .f32⟩
  | .local _ .vmem, ⟨1, _⟩ => ⟨S1024x64, .f32⟩
  | .local _ .vmem, ⟨2, _⟩ => ⟨S1024x960, .f32⟩
  | .local _ .vmem, ⟨3, _⟩ => ⟨S1024x960, .f32⟩
  | .local _ .vmem, ⟨4, _⟩ => ⟨S64x1024, .f32⟩
  | .local _ .vmem, ⟨5, _⟩ => ⟨S960x1024, .f32⟩
  | .local _ .vmem, ⟨6, _⟩ => ⟨S1x1024, .f32⟩
  | .local _ .vmem, ⟨7, _⟩ => ⟨S1024x64, .f32⟩
  | .local _ .vmem, ⟨8, _⟩ => ⟨S1x64, .f32⟩
  | .local _ .vmem, ⟨9, _⟩ => ⟨S1024x64, .f32⟩
  | .local _ .vmem, ⟨10, _⟩ => ⟨S1x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S960x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1024x1024_S1024x1_0_0 : S1024x1024.Slices ![0, 0] S1024x1
  shapeCasts_S1024x1_S1024 : S1024x1.ShapeCasts S1024
  slices_S1024x1024_S1x1023_0_1 : S1024x1024.Slices ![0, 1] S1x1023
  shapeCasts_S1x1023_S1023 : S1x1023.ShapeCasts S1023
  concatenates_S1024_S1023_S2047_d0 : Shape.Concatenates [S1024, S1023] S2047 0
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  slices_S1024x1024_S1024x64_0_0 : S1024x1024.Slices ![0, 0] S1024x64
  transposes_S1024x64_S64x1024_1_0 : S1024x64.Transposes [1, 0] S64x1024
  slices_S1024x1024_S1024x960_0_64 : S1024x1024.Slices ![0, 64] S1024x960
  transposes_S1024x960_S960x1024_1_0 : S1024x960.Transposes [1, 0] S960x1024
  transposes_S64x1024_S1024x64_1_0 : S64x1024.Transposes [1, 0] S1024x64
  shapeCasts_S1024_S1x1024 : S1024.ShapeCasts S1x1024
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1024x960_S1024x960_0_0 : ∀ a, (![0, 0] : Fin 2 → Nat) a + S1024x960.size a ≤ S1024x960.size a
  h_S1024x960 : 0 < S1024x960.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S960x1024_S960x1024_0_0 : ∀ a, (![0, 0] : Fin 2 → Nat) a + S960x1024.size a ≤ S960x1024.size a
  h_S960x1024 : 0 < S960x1024.numel
  shapeCasts_S960x1024_S960x1024 : S960x1024.ShapeCasts S960x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  gather_S2047_S1024x1024x1_S1024x1024_n_0_n_n_0_2_1_wf : GatherDims.WF S2047 S1024x1024x1 S1024x1024 [] [0] [] [0] [] 2 ![1]
  dot_S1024x64_S64x1024_S1024x1024_1_0_0_1_n_n_wf : DotDims.WF S1024x64 S64x1024 S1024x1024 [1] [0] [0] [1] [] []
  dot_S1024x960_S960x1024_S1024x1024_1_0_0_1_n_n_wf : DotDims.WF S1024x960 S960x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x960.size a ≤ S65536x960.size a
  hwx0_1 : ∀ i : grid0.Coords, EltTy.bits .f32 = 32 ∨ (Rect.block (s := S65536x960) S1024x960.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S960x1024.size a ≤ S960x1024.size a
  hwx0_3 : ∀ i : grid0.Coords, EltTy.bits .f32 = 32 ∨ (Rect.block (s := S960x1024) S960x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S65536x64.size a
  hwx0_9 : ∀ i : grid0.Coords, EltTy.bits .f32 = 32 ∨ (Rect.block (s := S65536x64) S1024x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S65536x64.size a
  hwx0_10 : ∀ i : grid0.Coords, EltTy.bits .f32 = 32 ∨ (Rect.block (s := S65536x64) S1024x64.size (cc0_transform_10 i) (hinb0_10 i)).WholeWords (EltTy.packing .f32)

variable [Facts₀]

def gather_S2047_S1024x1024x1_S1024x1024_n_0_n_n_0_2_1 : GatherDims S2047 S1024x1024x1 S1024x1024 where
  offsetDims := []
  collapsedSliceDims := [0]
  operandBatchingDims := []
  startIndicesBatchingDims := []
  startIndexMap := [0]
  indexVectorDim := 2
  sliceSizes := ![1]
  wf := gather_S2047_S1024x1024x1_S1024x1024_n_0_n_n_0_2_1_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x960_S960x1024_S1024x1024_1_0_0_1_n_n : DotDims S1024x960 S960x1024 S1024x1024 where
  lhsContracting := [1]
  rhsContracting := [0]
  lhsNonContracting := [0]
  rhsNonContracting := [1]
  lhsBatch := []
  rhsBatch := []
  wf := dot_S1024x960_S960x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S960x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31_0) S1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v31_1) S1024x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x960 : Shape := ⟨2, ![65536, 960]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S1024x1 : Shape := ⟨2, ![1024, 1]⟩
abbrev S1x1023 : Shape := ⟨2, ![1, 1023]⟩
abbrev S1023 : Shape := ⟨1, ![1023]⟩
abbrev S2047 : Shape := ⟨1, ![2047]⟩
abbrev S_ : Shape := ⟨0, ![]⟩
abbrev S1x1024 : Shape := ⟨2, ![1, 1024]⟩
abbrev S1024x1024x1 : Shape := ⟨3, ![1024, 1024, 1]⟩
abbrev S65536x1024 : Shape := ⟨2, ![65536, 1024]⟩
abbrev S1024x64 : Shape := ⟨2, ![1024, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x960, .f32⟩
  | .hbm, ⟨2, _⟩ => ⟨S1024x1024, .f32⟩
  | .hbm, ⟨3, _⟩ => ⟨S1024, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x1, .f32⟩
  | .hbm, ⟨9, _⟩ => ⟨S1024x1, .f32⟩
  | .hbm, ⟨10, _⟩ => ⟨S1024, .f32⟩
  | .hbm, ⟨11, _⟩ => ⟨S1x1023, .f32⟩
  | .hbm, ⟨12, _⟩ => ⟨S1023, .f32⟩
  | .hbm, ⟨13, _⟩ => ⟨S2047, .f32⟩
  | .hbm, ⟨14, _⟩ => ⟨S1024, .i32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i32⟩
  | .hbm, ⟨19, _⟩ => ⟨S1024, .i32⟩
  | .hbm, ⟨20, _⟩ => ⟨S1x1024, .i32⟩
  | .hbm, ⟨21, _⟩ => ⟨S1024x1024, .i32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i1⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024x1, .i32⟩
  | .hbm, ⟨32, _⟩ => ⟨S1024x1024, .f32⟩
  | .hbm, ⟨33, _⟩ => ⟨S65536x1024, .f32⟩
  | .hbm, ⟨34, _⟩ => ⟨S1024x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S1024x64, .f32⟩
  | .hbm, ⟨43, _⟩ => ⟨S65536x64, .f32⟩
  | .hbm, ⟨44, _⟩ => ⟨S1x64, .f32⟩
  | .hbm, ⟨45, _⟩ => ⟨S65536x64, .f32⟩
  | .hbm, ⟨46, _⟩ => ⟨S65536x64, .f32⟩
  | .hbm, ⟨47, _⟩ => ⟨S65536x64, .f32⟩
  | .hbm, ⟨48, _⟩ => ⟨S1024x64, .f32⟩
  | .hbm, ⟨49, _⟩ => ⟨S65536x64, .f32⟩
  | .hbm, ⟨50, _⟩ => ⟨S1x64, .f32⟩
  | .hbm, ⟨51, _⟩ => ⟨S65536x64, .f32⟩
  | .hbm, ⟨52, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  slices_S1024x1024_S1024x1_0_0 : S1024x1024.Slices ![0, 0] S1024x1
  shapeCasts_S1024x1_S1024 : S1024x1.ShapeCasts S1024
  slices_S1024x1024_S1x1023_0_1 : S1024x1024.Slices ![0, 1] S1x1023
  shapeCasts_S1x1023_S1023 : S1x1023.ShapeCasts S1023
  concatenates_S1024_S1023_S2047_d0 : Shape.Concatenates [S1024, S1023] S2047 0
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  concatenates_S65536x64_S65536x960_S65536x1024_d1 : Shape.Concatenates [S65536x64, S65536x960] S65536x1024 1
  transposes_S1024x1024_S1024x1024_1_0 : S1024x1024.Transposes [1, 0] S1024x1024
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S64x1024_S1024x64_1_0 : S64x1024.Transposes [1, 0] S1024x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  gather_S2047_S1024x1024x1_S1024x1024_n_0_n_n_0_2_1_wf : GatherDims.WF S2047 S1024x1024x1 S1024x1024 [] [0] [] [0] [] 2 ![1]
  dot_S65536x1024_S1024x1024_S65536x1024_1_0_0_1_n_n_wf : DotDims.WF S65536x1024 S1024x1024 S65536x1024 [1] [0] [0] [1] [] []
  dot_S65536x1024_S1024x64_S65536x64_1_0_0_1_n_n_wf : DotDims.WF S65536x1024 S1024x64 S65536x64 [1] [0] [0] [1] [] []

variable [Facts₀]

def gather_S2047_S1024x1024x1_S1024x1024_n_0_n_n_0_2_1 : GatherDims S2047 S1024x1024x1 S1024x1024 where
  offsetDims := []
  collapsedSliceDims := [0]
  operandBatchingDims := []
  startIndicesBatchingDims := []
  startIndexMap := [0]
  indexVectorDim := 2
  sliceSizes := ![1]
  wf := gather_S2047_S1024x1024x1_S1024x1024_n_0_n_n_0_2_1_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf

class Facts : Prop extends Facts₀ where

variable [Facts]
-- ==== Proof.Spec.lean ====
/-
  The two-layer perceptron, as mathematics on the extended reals.

  From a row `r` of the frame features `x` (64 wide) and of the reservoir state `h` (960 wide), a Toeplitz weight
  matrix `T` (1024 x 1024), and biases, the hidden unit `n` is
      q(r, n) = max (sum_{k<64} x(r,k) * T(n,k) + sum_{k<960} h(r,k) * T(n, 64+k) + b1(n), 0),
  and the two heads are
      slope(r, c)     = tanh (sum_{n<1024} q(r,n) * Ws(c,n) + bs(c)),
      intercept(r, c) =       sum_{n<1024} q(r,n) * Wi(c,n) + bi(c).
  The contraction against the concatenated row `[x(r,.), h(r,.)]` of width 1024 is the sum of the two partial
  contractions: a finite sum over `Fin (64 + 960)` splits into its first 64 and last 960 terms, which uses only that
  addition on the extended reals is commutative and associative (no finiteness, no distributivity).
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx

/-- Column `k` of the first 64 columns of a 1024-wide row. -/
abbrev colX (k : Fin 64) : Fin 1024 := ⟨k.val, by omega⟩
/-- Column `64 + k` of a 1024-wide row: the `k`-th of its last 960 columns. -/
abbrev colH (k : Fin 960) : Fin 1024 := ⟨64 + k.val, by omega⟩

/-- A sum over the 1024 columns is the sum over the first 64 plus the sum over the last 960. -/
theorem sum_split (f : Fin 1024 → EReal) :
    ∑ j : Fin 1024, f j = ∑ k : Fin 64, f (colX k) + ∑ k : Fin 960, f (colH k) :=
  Fin.sum_univ_add (a := 64) (b := 960) f

variable (x : (⟨2, ![65536, 64]⟩ : Shape).Idx → EReal) (h : (⟨2, ![65536, 960]⟩ : Shape).Idx → EReal)
  (T : (⟨2, ![1024, 1024]⟩ : Shape).Idx → EReal) (b1 : (⟨1, ![1024]⟩ : Shape).Idx → EReal)

/-- The hidden unit `n` on row `r`: the rectified affine form of the row `[x(r,.), h(r,.)]` against row `n` of `T`,
    the contraction written as its two partial sums. The zero is the binary32 word of `0.0`, left as it is printed. -/
def hidden (r : Fin 65536) (n : Fin 1024) : EReal :=
  max ((∑ k : Fin 64, x (ix2 r k) * T (ix2 n (colX k)) + ∑ k : Fin 960, h (ix2 r k) * T (ix2 n (colH k))) + b1 (ix1 n))
    (Ideal.ofBits .f32 0x00000000#32)

/-- The slope head at row `i 0`, output column `i 1`. -/
def slope (Ws : (⟨2, ![64, 1024]⟩ : Shape).Idx → EReal) (bs : (⟨1, ![64]⟩ : Shape).Idx → EReal) :
    (⟨2, ![65536, 64]⟩ : Shape).Idx → EReal :=
  fun i => Ideal.tanh (∑ n : Fin 1024, hidden x h T b1 (i 0) n * Ws (ix2 (i 1) n) + bs (ix1 (i 1)))

/-- The intercept head at row `i 0`, output column `i 1`. -/
def intercept (Wi : (⟨2, ![64, 1024]⟩ : Shape).Idx → EReal) (bi : (⟨1, ![64]⟩ : Shape).Idx → EReal) :
    (⟨2, ![65536, 64]⟩ : Shape).Idx → EReal :=
  fun i => ∑ n : Fin 1024, hidden x h T b1 (i 0) n * Wi (ix2 (i 1) n) + bi (ix1 (i 1))

end Cert.Mlp

end
-- ==== Proof.RefValue.lean ====
/-
  The reference computes the perceptron of the specification.

  Its hidden layer contracts the concatenated row `[x(r,.), h(r,.)]` (width 1024) against the transposed Toeplitz matrix:
  read at an index, column `j < 64` of the concatenation is `x(r,j)` and column `64 + k` is `h(r,k)`, so the sum over
  the 1024 columns splits into the two partial sums of the specification. The Toeplitz matrix itself (a gather from the
  first column reversed and the first row) is carried as one array `T`: nothing here depends on its entries.
  The heads contract the hidden row against the transposed head weights and add the bias; the slope head applies tanh.
-/
import proofs.«130853_j48576080117816_1_alg».proof.Proof.Gen.ReferenceIdeal.Read
import proofs.«130853_j48576080117816_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Mlp

variable (x0 : (⟨S65536x64, .f32⟩ : BufTy).Contents (Elt Ideal)) (x1 : (⟨S65536x960, .f32⟩ : BufTy).Contents (Elt Ideal))
  (x2 : (⟨S1024x1024, .f32⟩ : BufTy).Contents (Elt Ideal)) (x3 : (⟨S1024, .f32⟩ : BufTy).Contents (Elt Ideal))

/-- The concatenated row at one of its first 64 columns is the frame feature there. -/
theorem cat_left (r : Fin 65536) (k : Fin 64) : val_main_v22 (F := Ideal) x0 x1 (ix2 r (colX k)) = x0 (ix2 r k) := by
  unfold val_main_v22
  exact concatenate_pair_apply_left (1 : Fin 2) x0 x1 concatenates_S65536x64_S65536x960_S65536x1024_d1 (ix2 r (colX k)) rfl (ix2 r k)
    (fun b => match b with
      | ⟨0, _⟩ => rfl
      | ⟨1, _⟩ => rfl)

/-- The concatenated row at column `64 + k` is the reservoir state at `k`. -/
theorem cat_right (r : Fin 65536) (k : Fin 960) : val_main_v22 (F := Ideal) x0 x1 (ix2 r (colH k)) = x1 (ix2 r k) := by
  unfold val_main_v22
  exact concatenate_pair_apply_right (1 : Fin 2) x0 x1 concatenates_S65536x64_S65536x960_S65536x1024_d1 (ix2 r (colH k)) rfl rfl (ix2 r k)
    (fun b => match b with
      | ⟨0, _⟩ => fun _ => rfl
      | ⟨1, _⟩ => fun hne => absurd rfl hne)
    (by show k.val + 64 = 64 + k.val; omega)

/-- The reference's rectified hidden layer at row `r`, unit `n`, is the specification's, over its own Toeplitz array. -/
theorem hidden_eq (r : Fin 65536) (n : Fin 1024) :
    val_main_v28 (F := Ideal) x0 x1 x2 x3 (ix2 r n) = hidden x0 x1 (val_main_v21 (F := Ideal) x2) x3 r n := by
  have hl : ∀ j : Fin 1024, lidx_main_v24 (ix2 r n) j = ix2 r j := fun j => funext fun a => Fin.ext (by
    match a with
    | ⟨0, _⟩ => rfl
    | ⟨1, _⟩ => rfl)
  have hr : ∀ j : Fin 1024, idx_main_v23 (ridx_main_v24 (ix2 r n) j) = ix2 n j := fun j => funext fun a => Fin.ext (by
    match a with
    | ⟨0, _⟩ => rfl
    | ⟨1, _⟩ => rfl)
  have hb : idx_main_v25 (idx_main_v26 (ix2 r n)) = ix1 n := funext fun a => Fin.ext (by
    match a with
    | ⟨0, _⟩ => rfl)
  rw [val_main_v28_apply, val_main_v27_apply, val_main_v24_apply, val_main_v26_apply, val_main_v25_apply,
    val_main_call0_v0_apply, val_main_call0_cst_apply, hb]
  simp only [val_main_v23_apply, hl, hr]
  rw [sum_split]
  simp only [cat_left, cat_right]
  rfl

variable (x4 : (⟨S64x1024, .f32⟩ : BufTy).Contents (Elt Ideal)) (x5 : (⟨S64, .f32⟩ : BufTy).Contents (Elt Ideal))
  (x6 : (⟨S64x1024, .f32⟩ : BufTy).Contents (Elt Ideal)) (x7 : (⟨S64, .f32⟩ : BufTy).Contents (Elt Ideal))

/-- The reference's first result is the specification's slope head. -/
theorem slope_eq :
    val_main_v34 (F := Ideal) x0 x1 x2 x3 x4 x5 = slope x0 x1 (val_main_v21 (F := Ideal) x2) x3 x4 x5 := by
  funext i
  obtain ⟨r, c, rfl⟩ : ∃ (r : Fin 65536) (c : Fin 64), i = ix2 r c := ⟨i 0, i 1, eq_ix2 i⟩
  have hl : ∀ k : Fin 1024, lidx_main_v30 (ix2 r c) k = ix2 r k := fun k => funext fun a => Fin.ext (by
    match a with
    | ⟨0, _⟩ => rfl
    | ⟨1, _⟩ => rfl)
  have hr : ∀ k : Fin 1024, idx_main_v29 (ridx_main_v30 (ix2 r c) k) = ix2 c k := fun k => funext fun a => Fin.ext (by
    match a with
    | ⟨0, _⟩ => rfl
    | ⟨1, _⟩ => rfl)
  have hb : idx_main_v31 (idx_main_v32 (ix2 r c)) = ix1 c := funext fun a => Fin.ext (by
    match a with
    | ⟨0, _⟩ => rfl)
  rw [val_main_v34_apply, val_main_v33_apply, val_main_v30_apply, val_main_v32_apply, val_main_v31_apply, hb]
  simp only [val_main_v29_apply, hl, hr, hidden_eq]
  rfl

/-- The reference's second result is the specification's intercept head. -/
theorem intercept_eq :
    val_main_v39 (F := Ideal) x0 x1 x2 x3 x6 x7 = intercept x0 x1 (val_main_v21 (F := Ideal) x2) x3 x6 x7 := by
  funext i
  obtain ⟨r, c, rfl⟩ : ∃ (r : Fin 65536) (c : Fin 64), i = ix2 r c := ⟨i 0, i 1, eq_ix2 i⟩
  have hl : ∀ k : Fin 1024, lidx_main_v36 (ix2 r c) k = ix2 r k := fun k => funext fun a => Fin.ext (by
    match a with
    | ⟨0, _⟩ => rfl
    | ⟨1, _⟩ => rfl)
  have hr : ∀ k : Fin 1024, idx_main_v35 (ridx_main_v36 (ix2 r c) k) = ix2 c k := fun k => funext fun a => Fin.ext (by
    match a with
    | ⟨0, _⟩ => rfl
    | ⟨1, _⟩ => rfl)
  have hb : idx_main_v37 (idx_main_v38 (ix2 r c)) = ix1 c := funext fun a => Fin.ext (by
    match a with
    | ⟨0, _⟩ => rfl)
  rw [val_main_v39_apply, val_main_v36_apply, val_main_v38_apply, val_main_v37_apply, hb]
  simp only [val_main_v35_apply, hl, hr, hidden_eq]
  rfl

end Cert.ReferenceIdeal.RefValue

end
-- ==== Proof.LibPlainMatmul.lean ====
/-
  A plain matrix product read at an entry, over the extended reals.

  For dimension numbers with no batch axes, whose one non-contracting axis on each side is the left operand's axis 0
  and the right operand's axis 1, and which contract the left operand's axis 1 with the right operand's axis 0
  (rows times columns: [M, K] times [K, N] gives [M, N]), the product accumulated into a zero block is, at entry (p, n),
      sum_{k < K} left (p, k) * right (k, n).
  The two coordinate facts behind it: on its non-contracting axis an operand's index is the result's coordinate on the
  axis that operand contributes (the left operand's first, then the right operand's), and on its contracting axis it is
  the contraction position.
-/
import Idealize.ShloMosaic.PureOps.Ideal.Laws
import Idealize.ShloMosaic.Lib.ValueIdx

noncomputable section

namespace Cert.Lib.PlainMatmul

open Idealize.ShloMosaic Idealize.ShloMosaic.ValueIdx

section Coordinates

variable {sl sr so : Shape} (d : DotDims sl sr so)

/-- With no batch axes and `a` the left operand's only non-contracting axis, the left index on `a` is the result
    index's coordinate on the result's first axis. -/
theorem lhsIdx_val_of_non {a : Fin sl.rank} (hb : d.lhsBatch = []) (hn : d.lhsNonContracting = [a]) (j : so.Idx)
    (k : d.contr.Idx) (h0 : 0 < so.rank) : (d.lhsIdx j k a).val = (j ⟨0, h0⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one non-contracting axis on the left, and `a` the right operand's only non-contracting axis,
    the right index on `a` is the result index's coordinate on the result's second axis. -/
theorem rhsIdx_val_of_non {a : Fin sr.rank} (hlb : d.lhsBatch = []) (hln : d.lhsNonContracting.length = 1)
    (hb : d.rhsBatch = []) (hn : d.rhsNonContracting = [a]) (j : so.Idx) (k : d.contr.Idx) (h1 : 1 < so.rank) :
    (d.rhsIdx j k a).val = (j ⟨1, h1⟩).val := by
  have hmem : a ∈ d.rhsNonContracting := by rw [hn]; exact List.mem_singleton.mpr rfl
  have hnb : a ∉ d.rhsBatch := by rw [hb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Coordinates

/-- Rows times columns into a zero accumulator: entry (p, n) is the sum over the contracted coordinate. -/
theorem matmul_zero_apply {M K N : Nat} {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![M, K]⟩ φ₁) (r : FVec Ideal ⟨2, ![K, N]⟩ φ₂) (p : Fin M) (n : Fin N) :
    matmul d none l r (constant ⟨2, ![M, N]⟩ .f32 0x00000000#32) (ix2 p n) = ∑ k : Fin K, l (ix2 p k) * r (ix2 k n) := by
  have hr : d.contr.rank = 1 := by rw [d.rank_contr, hlc]; rfl
  have hs : d.contr.size ⟨0, by omega⟩ = K := by
    rw [d.size_contr 0 (by rw [hlc]; exact Nat.one_pos)]
    simp [hlc]
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k := funext fun a => Fin.ext (by
    match a with
    | ⟨0, _⟩ => exact lhsIdx_val_of_non d hlb hln _ _ (by show 0 < 2; omega)
    | ⟨1, _⟩ => exact (d.lhsIdx_val_of_single hlc _ _).trans hk)
  have er : d.rhsIdx (ix2 p n) ((contrEquiv1 d K hr hs).symm k) = ix2 k n := funext fun a => Fin.ext (by
    match a with
    | ⟨0, _⟩ => exact (d.rhsIdx_val_of_single hrc _ _).trans hk
    | ⟨1, _⟩ => exact rhsIdx_val_of_non d hlb (by rw [hln]; rfl) hrb hrn _ _ (by show 1 < 2; omega))
  rw [el, er]

end Cert.Lib.PlainMatmul

end
-- ==== Proof.KernelBlock.lean ====
/-
  What the kernel body computes from one grid point's blocks, entry by entry, over the extended reals.

  The body sees a block of 1024 rows of the frame features (`xb`, 1024 x 64) and of the reservoir state (`hb`, 1024 x 960),
  the two halves of the transposed Toeplitz matrix (`wx`, 64 x 1024 and `wh`, 960 x 1024), the hidden bias as a row
  (`b1`, 1 x 1024), the transposed head weights (1024 x 64) and the head biases as rows (1 x 64). The narrowing of every
  matrix operand to bfloat16 is the identity at the ideal values, and a shape cast to the same shape changes nothing.
    hidden block (p, n)   = max (sum_{k<64} xb(p,k) * wx(k,n) + sum_{k<960} hb(p,k) * wh(k,n) + b1(0,n), 0)
    slope block (p, c)    = tanh (sum_{n<1024} hidden(p,n) * ws(n,c) + bs(0,c))
    intercept block (p,c) =       sum_{n<1024} hidden(p,n) * wi(n,c) + bi(0,c)
-/
import proofs.«130853_j48576080117816_1_alg».proof.Proof.Gen.KernelIdeal.Skeleton
import proofs.«130853_j48576080117816_1_alg».proof.Proof.LibPlainMatmul
import Idealize.ShloMosaic.Lib.Pipeline.Value

noncomputable section

namespace Cert.KernelIdeal.Block

open Cert.KernelIdeal Cert.KernelIdeal.Gen Idealize.ShloMosaic Idealize.ShloMosaic.TcCoe Idealize.ShloMosaic.ValueIdx

/-- The frame-feature product (64 contracted coordinates) at an entry: the plain sum. -/
theorem matmul_x_apply {φ₁ φ₂ : FTy} (l : FVec Ideal S1024x64 φ₁) (r : FVec Ideal S64x1024 φ₂) (p : Fin 1024) (n : Fin 1024) :
    matmul dot_S1024x64_S64x1024_S1024x1024_1_0_0_1_n_n none l r (constant S1024x1024 .f32 0x00000000#32) (ix2 p n)
      = ∑ k : Fin 64, l (ix2 p k) * r (ix2 k n) :=
  Cert.Lib.PlainMatmul.matmul_zero_apply _ rfl rfl rfl rfl rfl rfl l r p n

/-- The reservoir-state product (960 contracted coordinates) at an entry. -/
theorem matmul_h_apply {φ₁ φ₂ : FTy} (l : FVec Ideal S1024x960 φ₁) (r : FVec Ideal S960x1024 φ₂) (p : Fin 1024) (n : Fin 1024) :
    matmul dot_S1024x960_S960x1024_S1024x1024_1_0_0_1_n_n none l r (constant S1024x1024 .f32 0x00000000#32) (ix2 p n)
      = ∑ k : Fin 960, l (ix2 p k) * r (ix2 k n) :=
  Cert.Lib.PlainMatmul.matmul_zero_apply _ rfl rfl rfl rfl rfl rfl l r p n

/-- A head's product over the 1024 hidden units at an entry. -/
theorem matmul_q_apply {φ₁ φ₂ : FTy} (l : FVec Ideal S1024x1024 φ₁) (r : FVec Ideal S1024x64 φ₂) (p : Fin 1024) (c : Fin 64) :
    matmul dot_S1024x1024_S1024x64_S1024x64_1_0_0_1_n_n none l r (constant S1024x64 .f32 0x00000000#32) (ix2 p c)
      = ∑ k : Fin 1024, l (ix2 p k) * r (ix2 k c) :=
  Cert.Lib.PlainMatmul.matmul_zero_apply _ rfl rfl rfl rfl rfl rfl l r p c

/-- A bias row broadcast down the 1024 rows of a 1024-wide block reads the row at the column. -/
theorem bias_row_1024 (v : Vec Ideal S1x1024 .f32) (p : Fin 1024) (n : Fin 1024) :
    broadcastTo S1024x1024 (shapeCast S1x1024 v shapeCasts_S1x1024_S1x1024) broadcasts_S1x1024_S1024x1024 (ix2 p n) = v (ix2 0 n) := by
  rw [shapeCast_self]
  exact broadcastTo_apply v broadcasts_S1x1024_S1024x1024 (ix2 p n) (ix2 0 n) (fun a => match a with
    | ⟨0, _⟩ => by show 0 = (if (1 : Nat) = 1 then 0 else p.val); rw [if_pos rfl]
    | ⟨1, _⟩ => by show n.val = (if (1024 : Nat) = 1 then 0 else n.val); rw [if_neg (by decide)])

/-- A bias row broadcast down the 1024 rows of a 64-wide block reads the row at the column. -/
theorem bias_row_64 (v : Vec Ideal S1x64 .f32) (p : Fin 1024) (c : Fin 64) :
    broadcastTo S1024x64 (shapeCast S1x64 v shapeCasts_S1x64_S1x64) broadcasts_S1x64_S1024x64 (ix2 p c) = v (ix2 0 c) := by
  rw [shapeCast_self]
  exact broadcastTo_apply v broadcasts_S1x64_S1024x64 (ix2 p c) (ix2 0 c) (fun a => match a with
    | ⟨0, _⟩ => by show 0 = (if (1 : Nat) = 1 then 0 else p.val); rw [if_pos rfl]
    | ⟨1, _⟩ => by show c.val = (if (64 : Nat) = 1 then 0 else c.val); rw [if_neg (by decide)])

variable (xb : Vec Ideal S1024x64 .f32) (hb : Vec Ideal S1024x960 .f32) (wx : Vec Ideal S64x1024 .f32)
  (wh : Vec Ideal S960x1024 .f32) (b1 : Vec Ideal S1x1024 .f32)

/-- The rectified hidden block at row `p`, unit `n`. -/
theorem hidden_apply (p : Fin 1024) (n : Fin 1024) :
    k0_pay2 (F := Ideal) xb hb wx wh b1 (ix2 p n)
      = max ((∑ k : Fin 64, xb (ix2 p k) * wx (ix2 k n) + ∑ k : Fin 960, hb (ix2 p k) * wh (ix2 k n)) + b1 (ix2 0 n))
          (Ideal.ofBits .f32 0x00000000#32) := by
  have ex := matmul_x_apply (truncf .bf16 xb bitsLt_bf16_f32)
    (truncf .bf16 (shapeCast S64x1024 wx shapeCasts_S64x1024_S64x1024) bitsLt_bf16_f32) p n
  have eh := matmul_h_apply (truncf .bf16 hb bitsLt_bf16_f32)
    (truncf .bf16 (shapeCast S960x1024 wh shapeCasts_S960x1024_S960x1024) bitsLt_bf16_f32) p n
  have eb := bias_row_1024 b1 p n
  rw [shapeCast_self] at ex eh
  unfold k0_pay2
  show max ((matmul (F := Ideal) dot_S1024x64_S64x1024_S1024x1024_1_0_0_1_n_n none _ _ _ (ix2 p n)
      + matmul (F := Ideal) dot_S1024x960_S960x1024_S1024x1024_1_0_0_1_n_n none _ _ _ (ix2 p n))
      + broadcastTo S1024x1024 (shapeCast S1x1024 b1 shapeCasts_S1x1024_S1x1024) broadcasts_S1x1024_S1024x1024 (ix2 p n))
      (Ideal.ofBits .f32 0x00000000#32) = _
  rw [shapeCast_self, shapeCast_self]
  exact congrArg₂ max (congrArg₂ (· + ·) (congrArg₂ (· + ·) ex eh) (by rw [← eb, shapeCast_self])) rfl

variable (ws : Vec Ideal S1024x64 .f32) (bs : Vec Ideal S1x64 .f32)

/-- The slope block at row `p`, column `c`. -/
theorem slope_apply (p : Fin 1024) (c : Fin 64) :
    k0_pay3 (F := Ideal) xb hb wx wh b1 ws bs (ix2 p c)
      = Ideal.tanh (∑ n : Fin 1024, k0_pay2 (F := Ideal) xb hb wx wh b1 (ix2 p n) * ws (ix2 n c) + bs (ix2 0 c)) := by
  have eq := matmul_q_apply (k0_pay2 (F := Ideal) xb hb wx wh b1)
    (truncf .bf16 (shapeCast S1024x64 ws shapeCasts_S1024x64_S1024x64) bitsLt_bf16_f32) p c
  have eb := bias_row_64 bs p c
  rw [shapeCast_self] at eq
  unfold k0_pay3
  show Ideal.tanh (matmul (F := Ideal) dot_S1024x1024_S1024x64_S1024x64_1_0_0_1_n_n none _ _ _ (ix2 p c)
      + broadcastTo S1024x64 (shapeCast S1x64 bs shapeCasts_S1x64_S1x64) broadcasts_S1x64_S1024x64 (ix2 p c)) = _
  rw [shapeCast_self]
  exact congrArg Ideal.tanh (congrArg₂ (· + ·) eq (by rw [← eb, shapeCast_self]))

/-- The intercept block at row `p`, column `c`. -/
theorem intercept_apply (wi : Vec Ideal S1024x64 .f32) (bi : Vec Ideal S1x64 .f32) (p : Fin 1024) (c : Fin 64) :
    k0_pay1 (F := Ideal) (k0_pay4 (F := Ideal) xb hb wx wh b1 wi) (k0_pay5 (F := Ideal) bi) (ix2 p c)
      = ∑ n : Fin 1024, k0_pay2 (F := Ideal) xb hb wx wh b1 (ix2 p n) * wi (ix2 n c) + bi (ix2 0 c) := by
  have eq := matmul_q_apply (k0_pay2 (F := Ideal) xb hb wx wh b1)
    (truncf .bf16 (shapeCast S1024x64 wi shapeCasts_S1024x64_S1024x64) bitsLt_bf16_f32) p c
  have eb := bias_row_64 bi p c
  rw [shapeCast_self] at eq
  unfold k0_pay1 k0_pay4 k0_pay5
  show matmul (F := Ideal) dot_S1024x1024_S1024x64_S1024x64_1_0_0_1_n_n none _ _ _ (ix2 p c)
      + broadcastTo S1024x64 (shapeCast S1x64 bi shapeCasts_S1x64_S1x64) broadcasts_S1x64_S1024x64 (ix2 p c) = _
  rw [shapeCast_self]
  exact congrArg₂ (· + ·) eq (by rw [← eb, shapeCast_self])

end Cert.KernelIdeal.Block

end
-- ==== Proof.KernelHost.lean ====
/-
  What the kernel's launch stages, as functions of the arguments.

  Before the launch the program builds, from the weight argument `W1`, the Toeplitz array `T` (1024 x 1024; the same
  gather from `W1`'s reversed first column and its first row that the reference makes, carried here as the reference's own
  term and never opened), and hands the kernel
    the transpose of T's first 64 columns      : entry (k, n) is T(n, k),        k < 64,
    the transpose of T's last 960 columns      : entry (k, n) is T(n, 64 + k),   k < 960,
    the transposes of the two head weight arrays : entry (n, c) is W(c, n),
    and the three biases as one-row arrays       : entry (0, n) is b(n).
  Each is read off the list of host operations, then at an index through the transpose, the slice or the reshape.
-/
import proofs.«130853_j48576080117816_1_alg».proof.Proof.Gen.KernelIdeal.Frame
import proofs.«130853_j48576080117816_1_alg».proof.Proof.Gen.ReferenceIdeal.Read
import proofs.«130853_j48576080117816_1_alg».proof.Proof.Spec
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx Cert.Mlp

variable {F : FTy → Type} [FloatOps F]
variable (m : (ℓ : Loc nD τ sig) → Buf (Elt F) ℓ)

/-- The Toeplitz array of core `c`'s weight argument: the reference's term for it, at the kernel's argument. -/
def toep (c : Dev nD) : Vec F S1024x1024 .f32 :=
  Cert.ReferenceIdeal.Read.val_main_v21 (F := F) (m ((c : Thread nD τ).loc main_arg2))

/-! ## The staged arrays as terms -/

set_option maxHeartbeats 2000000 in
theorem V_wx (c : Dev nD) : (V m c main_v23 : Vec F S64x1024 .f32)
    = transpose S64x1024 [1, 0] (extractStridedSlice S1024x64 ![0, 0] (toep m c) slices_S1024x1024_S1024x64_0_0) transposes_S1024x64_S64x1024_1_0 := by
  dsimp only [Gen.V, Gen.hostOps0]
  after_results
  rfl

set_option maxHeartbeats 2000000 in
theorem V_wh (c : Dev nD) : (V m c main_v25 : Vec F S960x1024 .f32)
    = transpose S960x1024 [1, 0] (extractStridedSlice S1024x960 ![0, 64] (toep m c) slices_S1024x1024_S1024x960_0_64) transposes_S1024x960_S960x1024_1_0 := by
  dsimp only [Gen.V, Gen.hostOps0]
  after_results
  rfl

set_option maxHeartbeats 2000000 in
theorem V_ws (c : Dev nD) : (V m c main_v26 : Vec F S1024x64 .f32)
    = transpose S1024x64 [1, 0] (m ((c : Thread nD τ).loc main_arg4)) transposes_S64x1024_S1024x64_1_0 := by
  dsimp only [Gen.V, Gen.hostOps0]
  after_results

set_option maxHeartbeats 2000000 in
theorem V_wi (c : Dev nD) : (V m c main_v27 : Vec F S1024x64 .f32)
    = transpose S1024x64 [1, 0] (m ((c : Thread nD τ).loc main_arg6)) transposes_S64x1024_S1024x64_1_0 := by
  dsimp only [Gen.V, Gen.hostOps0]
  after_results

set_option maxHeartbeats 2000000 in
theorem V_b1 (c : Dev nD) : (V m c main_v28 : Vec F S1x1024 .f32)
    = shapeCast S1x1024 (m ((c : Thread nD τ).loc main_arg3)) shapeCasts_S1024_S1x1024 := by
  dsimp only [Gen.V, Gen.hostOps0]
  after_results
  rfl

set_option maxHeartbeats 2000000 in
theorem V_bs (c : Dev nD) : (V m c main_v29 : Vec F S1x64 .f32)
    = shapeCast S1x64 (m ((c : Thread nD τ).loc main_arg5)) shapeCasts_S64_S1x64 := by
  dsimp only [Gen.V, Gen.hostOps0]
  after_results
  rfl

set_option maxHeartbeats 2000000 in
theorem V_bi (c : Dev nD) : (V m c main_v30 : Vec F S1x64 .f32)
    = shapeCast S1x64 (m ((c : Thread nD τ).loc main_arg7)) shapeCasts_S64_S1x64 := by
  dsimp only [Gen.V, Gen.hostOps0]
  after_results
  rfl

/-! ## The staged arrays at an index -/

/-- The transposed first 64 columns of `T`: entry (k, n) is `T (n, k)`. -/
theorem wx_apply (c : Dev nD) (k : Fin 64) (n : Fin 1024) :
    (V m c main_v23 : Vec F S64x1024 .f32) (ix2 k n) = toep m c (ix2 n (colX k)) := by
  refine (congrFun (V_wx m c) (ix2 k n)).trans ?_
  generalize toep m c = T
  refine (transpose_apply [1, 0] (extractStridedSlice S1024x64 ![0, 0] T slices_S1024x1024_S1024x64_0_0) transposes_S1024x64_S64x1024_1_0 (ix2 k n) (ix2 n k) (fun b => match b with
    | ⟨0, _⟩ => rfl
    | ⟨1, _⟩ => rfl)).trans ?_
  exact extractStridedSlice_apply ![0, 0] T slices_S1024x1024_S1024x64_0_0 (ix2 n k) (ix2 n (colX k)) (fun a => match a with
    | ⟨0, _⟩ => by show n.val = 0 + n.val; omega
    | ⟨1, _⟩ => by show k.val = 0 + k.val; omega)

/-- The transposed last 960 columns of `T`: entry (k, n) is `T (n, 64 + k)`. -/
theorem wh_apply (c : Dev nD) (k : Fin 960) (n : Fin 1024) :
    (V m c main_v25 : Vec F S960x1024 .f32) (ix2 k n) = toep m c (ix2 n (colH k)) := by
  refine (congrFun (V_wh m c) (ix2 k n)).trans ?_
  generalize toep m c = T
  refine (transpose_apply [1, 0] (extractStridedSlice S1024x960 ![0, 64] T slices_S1024x1024_S1024x960_0_64) transposes_S1024x960_S960x1024_1_0 (ix2 k n) (ix2 n k) (fun b => match b with
    | ⟨0, _⟩ => rfl
    | ⟨1, _⟩ => rfl)).trans ?_
  exact extractStridedSlice_apply ![0, 64] T slices_S1024x1024_S1024x960_0_64 (ix2 n k) (ix2 n (colH k)) (fun a => match a with
    | ⟨0, _⟩ => by show n.val = 0 + n.val; omega
    | ⟨1, _⟩ => by show 64 + k.val = 64 + k.val; rfl)

/-- The transposed slope weights: entry (n, c) is `W_slope (c, n)`. -/
theorem ws_apply (c : Dev nD) (n : Fin 1024) (j : Fin 64) :
    (V m c main_v26 : Vec F S1024x64 .f32) (ix2 n j) = m ((c : Thread nD τ).loc main_arg4) (ix2 j n) := by
  refine (congrFun (V_ws m c) (ix2 n j)).trans ?_
  exact transpose_apply [1, 0] (m ((c : Thread nD τ).loc main_arg4)) transposes_S64x1024_S1024x64_1_0 (ix2 n j) (ix2 j n) (fun b => match b with
    | ⟨0, _⟩ => rfl
    | ⟨1, _⟩ => rfl)

/-- The transposed intercept weights: entry (n, c) is `W_int (c, n)`. -/
theorem wi_apply (c : Dev nD) (n : Fin 1024) (j : Fin 64) :
    (V m c main_v27 : Vec F S1024x64 .f32) (ix2 n j) = m ((c : Thread nD τ).loc main_arg6) (ix2 j n) := by
  refine (congrFun (V_wi m c) (ix2 n j)).trans ?_
  exact transpose_apply [1, 0] (m ((c : Thread nD τ).loc main_arg6)) transposes_S64x1024_S1024x64_1_0 (ix2 n j) (ix2 j n) (fun b => match b with
    | ⟨0, _⟩ => rfl
    | ⟨1, _⟩ => rfl)

/-- The hidden bias as a row: entry (0, n) is `b1 n`. -/
theorem b1_apply (c : Dev nD) (n : Fin 1024) :
    (V m c main_v28 : Vec F S1x1024 .f32) (ix2 0 n) = m ((c : Thread nD τ).loc main_arg3) (ix1 n) := by
  refine (congrFun (V_b1 m c) (ix2 0 n)).trans ?_
  exact shapeCast_apply (s := S1024) (m ((c : Thread nD τ).loc main_arg3)) shapeCasts_S1024_S1x1024 (ix2 0 n) (ix1 n)
    (by rewrite [Shape.rowMajor_val_two, Shape.rowMajor_val_one]; show n.val = 0 * 1024 + n.val; omega)

/-- The slope bias as a row: entry (0, j) is `b_slope j`. -/
theorem bs_apply (c : Dev nD) (j : Fin 64) :
    (V m c main_v29 : Vec F S1x64 .f32) (ix2 0 j) = m ((c : Thread nD τ).loc main_arg5) (ix1 j) := by
  refine (congrFun (V_bs m c) (ix2 0 j)).trans ?_
  exact shapeCast_apply (s := S64) (m ((c : Thread nD τ).loc main_arg5)) shapeCasts_S64_S1x64 (ix2 0 j) (ix1 j)
    (by rewrite [Shape.rowMajor_val_two, Shape.rowMajor_val_one]; show j.val = 0 * 64 + j.val; omega)

/-- The intercept bias as a row: entry (0, j) is `b_int j`. -/
theorem bi_apply (c : Dev nD) (j : Fin 64) :
    (V m c main_v30 : Vec F S1x64 .f32) (ix2 0 j) = m ((c : Thread nD τ).loc main_arg7) (ix1 j) := by
  refine (congrFun (V_bi m c) (ix2 0 j)).trans ?_
  exact shapeCast_apply (s := S64) (m ((c : Thread nD τ).loc main_arg7)) shapeCasts_S64_S1x64 (ix2 0 j) (ix1 j)
    (by rewrite [Shape.rowMajor_val_two, Shape.rowMajor_val_one]; show j.val = 0 * 64 + j.val; omega)

end Cert.KernelIdeal.HostSide

end
-- ==== Proof.KernelValue.lean ====
/-
  The kernel's two result arrays, as the specification's functions of its arguments.

  The grid has 64 points; point `t` stages rows `1024 t .. 1024 t + 1023` of the frame features and of the reservoir
  state, the whole of every weight and bias array, and writes back rows `1024 t .. 1024 t + 1023` of each result.
  Entry (p, k) of a row block at point `t` is entry (1024 t + p, k) of its array; a whole-array window's block is the
  array. So what point `t` writes back is block `t` of the specification's slope (intercept) of the arguments: the
  hidden block is the specification's hidden layer on rows `1024 t + p`, with the staged halves of the transposed
  Toeplitz array read back as `T (n, k)` and `T (n, 64 + k)`, and the heads contract it against the transposed head
  weights. Row `r` of a result lies in the block of point `r / 1024`, so the 64 blocks cover the array and each result
  array ends holding the specification's function.
-/
import proofs.«130853_j48576080117816_1_alg».proof.Proof.Gen.KernelIdeal.Value
import proofs.«130853_j48576080117816_1_alg».proof.Proof.KernelBlock
import proofs.«130853_j48576080117816_1_alg».proof.Proof.KernelHost

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.HostSide

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 points -/

/-- The frame-feature window moves down the rows: block row `t`, block column 0. -/
theorem idx0 : ∀ t : Fin cfg0.N, win0_0.index t (0 : Fin 2) = t.val ∧ win0_0.index t (1 : Fin 2) = 0 :=
  (by decide +kernel : ∀ t : Fin grid0.N, _)
/-- The reservoir-state window moves with it. -/
theorem idx1 : ∀ t : Fin cfg0.N, win0_1.index t (0 : Fin 2) = t.val ∧ win0_1.index t (1 : Fin 2) = 0 :=
  (by decide +kernel : ∀ t : Fin grid0.N, _)
/-- The transposed first 64 Toeplitz columns stay resident: block (0, 0) at every point. -/
theorem idx2 : ∀ t : Fin cfg0.N, win0_2.index t (0 : Fin 2) = 0 ∧ win0_2.index t (1 : Fin 2) = 0 :=
  (by decide +kernel : ∀ t : Fin grid0.N, _)
/-- So do the transposed last 960 Toeplitz columns, -/
theorem idx3 : ∀ t : Fin cfg0.N, win0_3.index t (0 : Fin 2) = 0 ∧ win0_3.index t (1 : Fin 2) = 0 :=
  (by decide +kernel : ∀ t : Fin grid0.N, _)
/-- the hidden bias row, -/
theorem idx4 : ∀ t : Fin cfg0.N, win0_4.index t (0 : Fin 2) = 0 ∧ win0_4.index t (1 : Fin 2) = 0 :=
  (by decide +kernel : ∀ t : Fin grid0.N, _)
/-- the transposed slope weights, -/
theorem idx5 : ∀ t : Fin cfg0.N, win0_5.index t (0 : Fin 2) = 0 ∧ win0_5.index t (1 : Fin 2) = 0 :=
  (by decide +kernel : ∀ t : Fin grid0.N, _)
/-- the slope bias row, -/
theorem idx6 : ∀ t : Fin cfg0.N, win0_6.index t (0 : Fin 2) = 0 ∧ win0_6.index t (1 : Fin 2) = 0 :=
  (by decide +kernel : ∀ t : Fin grid0.N, _)
/-- the transposed intercept weights, -/
theorem idx7 : ∀ t : Fin cfg0.N, win0_7.index t (0 : Fin 2) = 0 ∧ win0_7.index t (1 : Fin 2) = 0 :=
  (by decide +kernel : ∀ t : Fin grid0.N, _)
/-- and the intercept bias row. -/
theorem idx8 : ∀ t : Fin cfg0.N, win0_8.index t (0 : Fin 2) = 0 ∧ win0_8.index t (1 : Fin 2) = 0 :=
  (by decide +kernel : ∀ t : Fin grid0.N, _)
/-- The slope result is written back block row by block row, -/
theorem idx9 : ∀ t : Fin cfg0.N, win0_9.index t (0 : Fin 2) = t.val ∧ win0_9.index t (1 : Fin 2) = 0 :=
  (by decide +kernel : ∀ t : Fin grid0.N, _)
/-- and so is the intercept result. -/
theorem idx10 : ∀ t : Fin cfg0.N, win0_10.index t (0 : Fin 2) = t.val ∧ win0_10.index t (1 : Fin 2) = 0 :=
  (by decide +kernel : ∀ t : Fin grid0.N, _)

/-- Row `p` of point `t`'s row block is row `1024 t + p` of the array. -/
abbrev rowOf (t : Fin cfg0.N) (p : Fin 1024) : Fin 65536 :=
  ⟨t.val * 1024 + p.val, by have ht : t.val < 64 := lt_of_lt_of_eq t.isLt N_0; have hp := p.isLt; omega⟩

/-! ## The input windows' blocks at an index -/

theorem x_blk (c : Dev nD) (t : Fin cfg0.N) (p : Fin 1024) (k : Fin 64) :
    (iblk m c 0 t : Vec Ideal S1024x64 .f32) (ix2 p k) = m ((c : Thread nD τ).loc main_arg0) (ix2 (rowOf t p) k) := by
  have f := idx0 t
  show V m c main_arg0 (((cfg0.win 0).blk t).view.emb (ix2 p k)) = _
  have h0 : ((cfg0.win 0).blk t).view.emb (ix2 p k) = ix2 (rowOf t p) k := by
    funext a; apply Fin.ext
    match a with
    | ⟨0, _⟩ => show win0_0.index t (0 : Fin 2) * 1024 + 1 * p.val = t.val * 1024 + p.val; rw [f.1]; omega
    | ⟨1, _⟩ => show win0_0.index t (1 : Fin 2) * 64 + 1 * k.val = k.val; rw [f.2]; omega
  rw [h0, V_main_arg0]

theorem h_blk (c : Dev nD) (t : Fin cfg0.N) (p : Fin 1024) (k : Fin 960) :
    (iblk m c 1 t : Vec Ideal S1024x960 .f32) (ix2 p k) = m ((c : Thread nD τ).loc main_arg1) (ix2 (rowOf t p) k) := by
  have f := idx1 t
  show V m c main_arg1 (((cfg0.win 1).blk t).view.emb (ix2 p k)) = _
  have h0 : ((cfg0.win 1).blk t).view.emb (ix2 p k) = ix2 (rowOf t p) k := by
    funext a; apply Fin.ext
    match a with
    | ⟨0, _⟩ => show win0_1.index t (0 : Fin 2) * 1024 + 1 * p.val = t.val * 1024 + p.val; rw [f.1]; omega
    | ⟨1, _⟩ => show win0_1.index t (1 : Fin 2) * 960 + 1 * k.val = k.val; rw [f.2]; omega
  rw [h0, V_main_arg1]

theorem wx_blk (c : Dev nD) (t : Fin cfg0.N) (k : Fin 64) (n : Fin 1024) :
    (iblk m c 2 t : Vec Ideal S64x1024 .f32) (ix2 k n) = toep m c (ix2 n (colX k)) := by
  have f := idx2 t
  show V m c main_v23 (((cfg0.win 2).blk t).view.emb (ix2 k n)) = _
  have h0 : ((cfg0.win 2).blk t).view.emb (ix2 k n) = ix2 k n := by
    funext a; apply Fin.ext
    match a with
    | ⟨0, _⟩ => show win0_2.index t (0 : Fin 2) * 64 + 1 * k.val = k.val; rw [f.1]; omega
    | ⟨1, _⟩ => show win0_2.index t (1 : Fin 2) * 1024 + 1 * n.val = n.val; rw [f.2]; omega
  rw [h0]
  exact wx_apply m c k n

theorem wh_blk (c : Dev nD) (t : Fin cfg0.N) (k : Fin 960) (n : Fin 1024) :
    (iblk m c 3 t : Vec Ideal S960x1024 .f32) (ix2 k n) = toep m c (ix2 n (colH k)) := by
  have f := idx3 t
  show V m c main_v25 (((cfg0.win 3).blk t).view.emb (ix2 k n)) = _
  have h0 : ((cfg0.win 3).blk t).view.emb (ix2 k n) = ix2 k n := by
    funext a; apply Fin.ext
    match a with
    | ⟨0, _⟩ => show win0_3.index t (0 : Fin 2) * 960 + 1 * k.val = k.val; rw [f.1]; omega
    | ⟨1, _⟩ => show win0_3.index t (1 : Fin 2) * 1024 + 1 * n.val = n.val; rw [f.2]; omega
  rw [h0]
  exact wh_apply m c k n

theorem b1_blk (c : Dev nD) (t : Fin cfg0.N) (n : Fin 1024) :
    (iblk m c 4 t : Vec Ideal S1x1024 .f32) (ix2 0 n) = m ((c : Thread nD τ).loc main_arg3) (ix1 n) := by
  have f := idx4 t
  show V m c main_v28 (((cfg0.win 4).blk t).view.emb (ix2 0 n)) = _
  have h0 : ((cfg0.win 4).blk t).view.emb (ix2 (0 : Fin 1) n) = ix2 (0 : Fin 1) n := by
    funext a; apply Fin.ext
    match a with
    | ⟨0, _⟩ => show win0_4.index t (0 : Fin 2) * 1 + 1 * 0 = 0; rw [f.1]
    | ⟨1, _⟩ => show win0_4.index t (1 : Fin 2) * 1024 + 1 * n.val = n.val; rw [f.2]; omega
  rw [h0]
  exact b1_apply m c n

theorem ws_blk (c : Dev nD) (t : Fin cfg0.N) (n : Fin 1024) (j : Fin 64) :
    (iblk m c 5 t : Vec Ideal S1024x64 .f32) (ix2 n j) = m ((c : Thread nD τ).loc main_arg4) (ix2 j n) := by
  have f := idx5 t
  show V m c main_v26 (((cfg0.win 5).blk t).view.emb (ix2 n j)) = _
  have h0 : ((cfg0.win 5).blk t).view.emb (ix2 n j) = ix2 n j := by
    funext a; apply Fin.ext
    match a with
    | ⟨0, _⟩ => show win0_5.index t (0 : Fin 2) * 1024 + 1 * n.val = n.val; rw [f.1]; omega
    | ⟨1, _⟩ => show win0_5.index t (1 : Fin 2) * 64 + 1 * j.val = j.val; rw [f.2]; omega
  rw [h0]
  exact ws_apply m c n j

theorem bs_blk (c : Dev nD) (t : Fin cfg0.N) (j : Fin 64) :
    (iblk m c 6 t : Vec Ideal S1x64 .f32) (ix2 0 j) = m ((c : Thread nD τ).loc main_arg5) (ix1 j) := by
  have f := idx6 t
  show V m c main_v29 (((cfg0.win 6).blk t).view.emb (ix2 0 j)) = _
  have h0 : ((cfg0.win 6).blk t).view.emb (ix2 (0 : Fin 1) j) = ix2 (0 : Fin 1) j := by
    funext a; apply Fin.ext
    match a with
    | ⟨0, _⟩ => show win0_6.index t (0 : Fin 2) * 1 + 1 * 0 = 0; rw [f.1]
    | ⟨1, _⟩ => show win0_6.index t (1 : Fin 2) * 64 + 1 * j.val = j.val; rw [f.2]; omega
  rw [h0]
  exact bs_apply m c j

theorem wi_blk (c : Dev nD) (t : Fin cfg0.N) (n : Fin 1024) (j : Fin 64) :
    (iblk m c 7 t : Vec Ideal S1024x64 .f32) (ix2 n j) = m ((c : Thread nD τ).loc main_arg6) (ix2 j n) := by
  have f := idx7 t
  show V m c main_v27 (((cfg0.win 7).blk t).view.emb (ix2 n j)) = _
  have h0 : ((cfg0.win 7).blk t).view.emb (ix2 n j) = ix2 n j := by
    funext a; apply Fin.ext
    match a with
    | ⟨0, _⟩ => show win0_7.index t (0 : Fin 2) * 1024 + 1 * n.val = n.val; rw [f.1]; omega
    | ⟨1, _⟩ => show win0_7.index t (1 : Fin 2) * 64 + 1 * j.val = j.val; rw [f.2]; omega
  rw [h0]
  exact wi_apply m c n j

theorem bi_blk (c : Dev nD) (t : Fin cfg0.N) (j : Fin 64) :
    (iblk m c 8 t : Vec Ideal S1x64 .f32) (ix2 0 j) = m ((c : Thread nD τ).loc main_arg7) (ix1 j) := by
  have f := idx8 t
  show V m c main_v30 (((cfg0.win 8).blk t).view.emb (ix2 0 j)) = _
  have h0 : ((cfg0.win 8).blk t).view.emb (ix2 (0 : Fin 1) j) = ix2 (0 : Fin 1) j := by
    funext a; apply Fin.ext
    match a with
    | ⟨0, _⟩ => show win0_8.index t (0 : Fin 2) * 1 + 1 * 0 = 0; rw [f.1]
    | ⟨1, _⟩ => show win0_8.index t (1 : Fin 2) * 64 + 1 * j.val = j.val; rw [f.2]; omega
  rw [h0]
  exact bi_apply m c j

/-! ## What a point computes, as the specification on its rows -/

/-- The specification's slope head of core `c`'s arguments. -/
abbrev slopeArr (c : Dev nD) : S65536x64.Idx → EReal :=
  slope (m ((c : Thread nD τ).loc main_arg0)) (m ((c : Thread nD τ).loc main_arg1)) (toep m c)
    (m ((c : Thread nD τ).loc main_arg3)) (m ((c : Thread nD τ).loc main_arg4)) (m ((c : Thread nD τ).loc main_arg5))

/-- The specification's intercept head of core `c`'s arguments. -/
abbrev interArr (c : Dev nD) : S65536x64.Idx → EReal :=
  intercept (m ((c : Thread nD τ).loc main_arg0)) (m ((c : Thread nD τ).loc main_arg1)) (toep m c)
    (m ((c : Thread nD τ).loc main_arg3)) (m ((c : Thread nD τ).loc main_arg6)) (m ((c : Thread nD τ).loc main_arg7))

/-- The hidden block of point `t` at (p, n) is the specification's hidden unit `n` on row `1024 t + p`. -/
theorem hidden_point (c : Dev nD) (t : Fin cfg0.N) (p : Fin 1024) (n : Fin 1024) :
    k0_pay2 (F := Ideal) (iblk m c 0 t) (iblk m c 1 t) (iblk m c 2 t) (iblk m c 3 t) (iblk m c 4 t) (ix2 p n)
      = Mlp.hidden (m ((c : Thread nD τ).loc main_arg0)) (m ((c : Thread nD τ).loc main_arg1)) (toep m c)
          (m ((c : Thread nD τ).loc main_arg3)) (rowOf t p) n := by
  refine (Block.hidden_apply (iblk m c 0 t) (iblk m c 1 t) (iblk m c 2 t) (iblk m c 3 t) (iblk m c 4 t) p n).trans ?_
  unfold Mlp.hidden
  exact congrArg₂ max (congrArg₂ (· + ·) (congrArg₂ (· + ·)
      (Finset.sum_congr rfl fun k _ => congrArg₂ (· * ·) (x_blk m c t p k) (wx_blk m c t k n))
      (Finset.sum_congr rfl fun k _ => congrArg₂ (· * ·) (h_blk m c t p k) (wh_blk m c t k n)))
    (b1_blk m c t n)) rfl

/-- The slope block of point `t` at (p, q) is the specification's slope at row `1024 t + p`, column `q`. -/
theorem slope_point (c : Dev nD) (t : Fin cfg0.N) (p : Fin 1024) (q : Fin 64) :
    k0_pay3 (F := Ideal) (iblk m c 0 t) (iblk m c 1 t) (iblk m c 2 t) (iblk m c 3 t) (iblk m c 4 t) (iblk m c 5 t) (iblk m c 6 t) (ix2 p q)
      = slopeArr m c (ix2 (rowOf t p) q) := by
  refine (Block.slope_apply (iblk m c 0 t) (iblk m c 1 t) (iblk m c 2 t) (iblk m c 3 t) (iblk m c 4 t) (iblk m c 5 t) (iblk m c 6 t) p q).trans ?_
  show _ = Ideal.tanh (∑ n : Fin 1024, Mlp.hidden _ _ _ _ (rowOf t p) n * m ((c : Thread nD τ).loc main_arg4) (ix2 q n) + m ((c : Thread nD τ).loc main_arg5) (ix1 q))
  exact congrArg Ideal.tanh (congrArg₂ (· + ·)
    (Finset.sum_congr rfl fun n _ => congrArg₂ (· * ·) (hidden_point m c t p n) (ws_blk m c t n q))
    (bs_blk m c t q))

/-- The intercept block of point `t` at (p, q) is the specification's intercept at row `1024 t + p`, column `q`. -/
theorem inter_point (c : Dev nD) (t : Fin cfg0.N) (p : Fin 1024) (q : Fin 64) :
    k0_pay1 (F := Ideal) (k0_pay4 (F := Ideal) (iblk m c 0 t) (iblk m c 1 t) (iblk m c 2 t) (iblk m c 3 t) (iblk m c 4 t) (iblk m c 7 t))
        (k0_pay5 (F := Ideal) (iblk m c 8 t)) (ix2 p q)
      = interArr m c (ix2 (rowOf t p) q) := by
  refine (Block.intercept_apply (iblk m c 0 t) (iblk m c 1 t) (iblk m c 2 t) (iblk m c 3 t) (iblk m c 4 t) (iblk m c 7 t) (iblk m c 8 t) p q).trans ?_
  show _ = ∑ n : Fin 1024, Mlp.hidden _ _ _ _ (rowOf t p) n * m ((c : Thread nD τ).loc main_arg6) (ix2 q n) + m ((c : Thread nD τ).loc main_arg7) (ix1 q)
  exact congrArg₂ (· + ·)
    (Finset.sum_congr rfl fun n _ => congrArg₂ (· * ·) (hidden_point m c t p n) (wi_blk m c t n q))
    (bi_blk m c t q)

/-! ## What a point writes back is a block of the specification -/

theorem out_emb9 (t : Fin cfg0.N) (p : Fin 1024) (q : Fin 64) :
    ((cfg0.win 9).blk t).view.emb (ix2 p q) = ix2 (rowOf t p) q := by
  have f := idx9 t
  funext a; apply Fin.ext
  match a with
  | ⟨0, _⟩ => show win0_9.index t (0 : Fin 2) * 1024 + 1 * p.val = t.val * 1024 + p.val; rw [f.1]; omega
  | ⟨1, _⟩ => show win0_9.index t (1 : Fin 2) * 64 + 1 * q.val = q.val; rw [f.2]; omega

theorem out_emb10 (t : Fin cfg0.N) (p : Fin 1024) (q : Fin 64) :
    ((cfg0.win 10).blk t).view.emb (ix2 p q) = ix2 (rowOf t p) q := by
  have f := idx10 t
  funext a; apply Fin.ext
  match a with
  | ⟨0, _⟩ => show win0_10.index t (0 : Fin 2) * 1024 + 1 * p.val = t.val * 1024 + p.val; rw [f.1]; omega
  | ⟨1, _⟩ => show win0_10.index t (1 : Fin 2) * 64 + 1 * q.val = q.val; rw [f.2]; omega

theorem flushed9_eq (c : Dev nD) (t : Fin cfg0.N) :
    (dats m 0 c).flushed 9 t = ((cfg0.win 9).blk t).view.read (Elt Ideal) (slopeArr m c) := by
  rw [Value.flushed9]
  unfold out0_9
  rw [View.canon_unit_zero hz]
  simp only [View.ld_unit_zero (S := S1024x64) hz, View.ld_unit_zero (S := S1024x960) hz, View.ld_unit_zero (S := S64x1024) hz,
    View.ld_unit_zero (S := S960x1024) hz, View.ld_unit_zero (S := S1x1024) hz, View.ld_unit_zero (S := S1x64) hz]
  funext j
  obtain ⟨p, q, rfl⟩ : ∃ (p : Fin 1024) (q : Fin 64), j = ix2 p q := ⟨j 0, j 1, eq_ix2 j⟩
  show k0_pay3 (F := Ideal) (iblk m c 0 t) (iblk m c 1 t) (iblk m c 2 t) (iblk m c 3 t) (iblk m c 4 t) (iblk m c 5 t) (iblk m c 6 t) (ix2 p q)
    = slopeArr m c (((cfg0.win 9).blk t).view.emb (ix2 p q))
  rw [out_emb9]
  exact slope_point m c t p q

theorem flushed10_eq (c : Dev nD) (t : Fin cfg0.N) :
    (dats m 0 c).flushed 10 t = ((cfg0.win 10).blk t).view.read (Elt Ideal) (interArr m c) := by
  rw [Value.flushed10]
  unfold out0_10
  rw [View.canon_unit_zero hz]
  simp only [View.ld_unit_zero (S := S1024x64) hz, View.ld_unit_zero (S := S1024x960) hz, View.ld_unit_zero (S := S64x1024) hz,
    View.ld_unit_zero (S := S960x1024) hz, View.ld_unit_zero (S := S1x1024) hz, View.ld_unit_zero (S := S1x64) hz]
  funext j
  obtain ⟨p, q, rfl⟩ : ∃ (p : Fin 1024) (q : Fin 64), j = ix2 p q := ⟨j 0, j 1, eq_ix2 j⟩
  show k0_pay1 (F := Ideal) (k0_pay4 (F := Ideal) (iblk m c 0 t) (iblk m c 1 t) (iblk m c 2 t) (iblk m c 3 t) (iblk m c 4 t) (iblk m c 7 t))
      (k0_pay5 (F := Ideal) (iblk m c 8 t)) (ix2 p q)
    = interArr m c (((cfg0.win 10).blk t).view.emb (ix2 p q))
  rw [out_emb10]
  exact inter_point m c t p q

/-! ## The 64 row blocks cover each result array -/

theorem mem_blk9 (t : Fin cfg0.N) (i : S65536x64.Idx) :
    i ∈ ((cfg0.win 9).blk t).view.set ↔ ∀ a : Fin 2, win0_9.index t a * S1024x64.size a ≤ (i a).val ∧ (i a).val < win0_9.index t a * S1024x64.size a + S1024x64.size a := by
  show i ∈ ((View.whole main_v31_0).slice (win0_9.rect t)).set ↔ _
  rw [View.set_slice_whole, Rect.mem_set_unit]
  exact Iff.rfl

theorem mem_blk10 (t : Fin cfg0.N) (i : S65536x64.Idx) :
    i ∈ ((cfg0.win 10).blk t).view.set ↔ ∀ a : Fin 2, win0_10.index t a * S1024x64.size a ≤ (i a).val ∧ (i a).val < win0_10.index t a * S1024x64.size a + S1024x64.size a := by
  show i ∈ ((View.whole main_v31_1).slice (win0_10.rect t)).set ↔ _
  rw [View.set_slice_whole, Rect.mem_set_unit]
  exact Iff.rfl

/-- Row `r` lies in the block of point `r / 1024`. -/
theorem cover9 (i : S65536x64.Idx) : ∃ t : Fin cfg0.N, (cfg0.win 9).flush t = true ∧ i ∈ ((cfg0.win 9).blk t).view.set := by
  have hi0 : (i 0).val < 65536 := (i 0).isLt
  have hi1 : (i 1).val < 64 := (i 1).isLt
  have hq : (i 0).val / 1024 < 64 := by omega
  refine ⟨⟨(i 0).val / 1024, lt_of_lt_of_eq hq N_0.symm⟩, flush0_9 _, ?_⟩
  have f := idx9 ⟨(i 0).val / 1024, lt_of_lt_of_eq hq N_0.symm⟩
  rw [mem_blk9]
  intro a
  match a with
  | ⟨0, _⟩ =>
    show win0_9.index ⟨(i 0).val / 1024, _⟩ (0 : Fin 2) * 1024 ≤ (i 0).val ∧ (i 0).val < win0_9.index ⟨(i 0).val / 1024, _⟩ (0 : Fin 2) * 1024 + 1024
    rw [f.1]; show (i 0).val / 1024 * 1024 ≤ (i 0).val ∧ (i 0).val < (i 0).val / 1024 * 1024 + 1024; omega
  | ⟨1, _⟩ =>
    show win0_9.index ⟨(i 0).val / 1024, _⟩ (1 : Fin 2) * 64 ≤ (i 1).val ∧ (i 1).val < win0_9.index ⟨(i 0).val / 1024, _⟩ (1 : Fin 2) * 64 + 64
    rw [f.2]; omega

theorem cover10 (i : S65536x64.Idx) : ∃ t : Fin cfg0.N, (cfg0.win 10).flush t = true ∧ i ∈ ((cfg0.win 10).blk t).view.set := by
  have hi0 : (i 0).val < 65536 := (i 0).isLt
  have hi1 : (i 1).val < 64 := (i 1).isLt
  have hq : (i 0).val / 1024 < 64 := by omega
  refine ⟨⟨(i 0).val / 1024, lt_of_lt_of_eq hq N_0.symm⟩, flush0_10 _, ?_⟩
  have f := idx10 ⟨(i 0).val / 1024, lt_of_lt_of_eq hq N_0.symm⟩
  rw [mem_blk10]
  intro a
  match a with
  | ⟨0, _⟩ =>
    show win0_10.index ⟨(i 0).val / 1024, _⟩ (0 : Fin 2) * 1024 ≤ (i 0).val ∧ (i 0).val < win0_10.index ⟨(i 0).val / 1024, _⟩ (0 : Fin 2) * 1024 + 1024
    rw [f.1]; show (i 0).val / 1024 * 1024 ≤ (i 0).val ∧ (i 0).val < (i 0).val / 1024 * 1024 + 1024; omega
  | ⟨1, _⟩ =>
    show win0_10.index ⟨(i 0).val / 1024, _⟩ (1 : Fin 2) * 64 ≤ (i 1).val ∧ (i 1).val < win0_10.index ⟨(i 0).val / 1024, _⟩ (1 : Fin 2) * 64 + 64
    rw [f.2]; omega

/-- After the run the first result array is the specification's slope of the arguments. -/
theorem final9 (c : Dev nD) : (dats m 0 c).arrAt 9 cfg0.N = slopeArr m c :=
  (dats m 0 c).arrAt_eq_of_cover 9 (slopeArr m c) (fun t _ => flushed9_eq m c t) cover9

/-- After the run the second result array is the specification's intercept of the arguments. -/
theorem final10 (c : Dev nD) : (dats m 0 c).arrAt 10 cfg0.N = interArr m c :=
  (dats m 0 c).arrAt_eq_of_cover 10 (interArr m c) (fun t _ => flushed10_eq m c t) cover10

/-! ## The run -/

/-- Every weakly fair execution of the program ends with the two result arrays at the specification's slope and
    intercept of the arguments, and the arguments unchanged. -/
theorem run : θ_run defs (onTc (τ := τ) (main (F := Ideal))) ⟨m, fun _ => 0, ρ⟩ fun r => ∀ c : Dev nD,
      r.2.mem ((c : Thread nD τ).loc main_v31_0) = slopeArr m c
      ∧ r.2.mem ((c : Thread nD τ).loc main_v31_1) = interArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2.1.trans (final10 m c), (h c).2.2⟩)
    (Value.run_blocks m ρ)

end Cert.KernelIdeal.RunValue

end
-- ==== Proof.lean ====
/-
  A two-layer perceptron over 65536 rows, fused into one kernel, against its array-at-a-time form.

  Each row is the concatenation of 64 frame features and 960 reservoir-state entries. The hidden layer is the rectified
  affine map of the row against a 1024 x 1024 Toeplitz matrix built from the first column and first row of the weight
  argument; two heads of width 64 follow, one through tanh. The kernel walks the rows in 64 blocks of 1024, keeps the
  hidden block on chip, and never forms the concatenated row: it adds the frame-feature contraction (64 terms) to the
  reservoir-state contraction (960 terms). Over the extended reals that is the reference's single contraction of 1024
  terms, because a finite sum splits at any position; every narrowing to bfloat16 is the identity there, and both
  programs build the Toeplitz matrix by the same operations, so it is carried as one array and never opened.

  The three frames: the kernel's two are its generated frame certificates; the reference is a straight line of host
  operations, and its frame is its run with the results dropped. The idealization rewrote nothing, so `preserves`
  asks nothing. The algebraic conjunct sets the kernel's run (each result array the specification's function of the
  arguments) beside the reference's run read back operation by operation to the same function.
-/
import proofs.«130853_j48576080117816_1_alg».proof.Defs
import proofs.«130853_j48576080117816_1_alg».proof.Proof.Gen.Kernel
import proofs.«130853_j48576080117816_1_alg».proof.Proof.Gen.Kernel.Skeleton
import proofs.«130853_j48576080117816_1_alg».proof.Proof.Gen.Kernel.Launch
import proofs.«130853_j48576080117816_1_alg».proof.Proof.Gen.Kernel.Points
import proofs.«130853_j48576080117816_1_alg».proof.Proof.Gen.Kernel.Frame
import proofs.«130853_j48576080117816_1_alg».proof.Proof.Gen.KernelIdeal
import proofs.«130853_j48576080117816_1_alg».proof.Proof.Gen.KernelIdeal.Skeleton
import proofs.«130853_j48576080117816_1_alg».proof.Proof.Gen.KernelIdeal.Launch
import proofs.«130853_j48576080117816_1_alg».proof.Proof.Gen.KernelIdeal.Points
import proofs.«130853_j48576080117816_1_alg».proof.Proof.Gen.KernelIdeal.Frame
import proofs.«130853_j48576080117816_1_alg».proof.Proof.Gen.ReferenceIdeal
import proofs.«130853_j48576080117816_1_alg».proof.Proof.Gen.Pre_finite_inputs
import proofs.«130853_j48576080117816_1_alg».proof.Proof.Gen.KernelIdeal.Value
import proofs.«130853_j48576080117816_1_alg».proof.Proof.Gen.ReferenceIdeal.Run
import proofs.«130853_j48576080117816_1_alg».proof.Proof.Gen.ReferenceIdeal.Read
import proofs.«130853_j48576080117816_1_alg».proof.Proof.RefValue
import proofs.«130853_j48576080117816_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's slope and intercept of the arguments: the kernel's run posts them
    block by block, the reference's run is read back to them, and the arguments agree. -/
theorem algebraic : Cert.algebraic_KernelIdeal_ReferenceIdeal := by
  intro m ρ m' ρ' _ hagree
  refine ⟨fun c => Cert.KernelIdeal.RunValue.slopeArr m c, fun c => Cert.KernelIdeal.RunValue.interArr m c,
    Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨?_, ?_, (h c).2.2⟩
  · rw [(h c).1, Cert.ReferenceIdeal.Read.val_main_v34_eq, Cert.ReferenceIdeal.RefValue.slope_eq, a0, a1, a2, a3, a4, a5]
    rfl
  · rw [(h c).2.1, Cert.ReferenceIdeal.Read.val_main_v39_eq, Cert.ReferenceIdeal.RefValue.intercept_eq, a0, a1, a2, a3, a6, a7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
